-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S2048x2048 : Shape := ⟨2, ![2048, 2048]⟩
abbrev S_ : Shape := ⟨0, ![]⟩
abbrev S2048 : Shape := ⟨1, ![2048]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  reducesTo_S_S_d : S_.ReducesTo [] S_
  bcast_S_S2048 : S_.BroadcastsInDim S2048 (![] : Fin 0 → Fin S2048.rank)
  reducesTo_S2048_S_d0 : S2048.ReducesTo [0] S_

variable [Facts]

def fn_part1 {F : FTy → Type} [FloatOps F] (main_v12 : IVec S_ 1) (main_v15 : IVec S2048 1) (main_c_5 : IVec S_ 1) : IVec S_ 1 :=
  let main_v16 : IVec S_ 1 := (fun x v => Host.reduce IntOp.andi x v reducesTo_S2048_S_d0 h_S_) main_v15 main_c_5
  let main_v17 : IVec S_ 1 := andi main_v12 main_v16
  main_v17

def fn {F : FTy → Type} [FloatOps F] (main_arg0 : FVec F S4x2048x2048 .f32) (main_arg1 : FVec F S2048x2048 .f32) (main_arg2 : FVec F S_ .f32) (main_arg3 : FVec F S2048 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S_ .f32 := Host.absf main_arg2
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  let main_v13 : FVec F S2048 .f32 := Host.absf main_arg3
  let main_cst_4 : FVec F S_ .f32 := constant S_ .f32 0x7F800000#32
  let main_v14 : FVec F S2048 .f32 := broadcastInDim S2048 ![] bcast_S_S2048 main_cst_4
  let main_v15 : IVec S2048 1 := cmpf .olt main_v13 main_v14
  let main_c_5 : IVec S_ 1 := constantI S_ 1 1#1
  fn_part1 (F := F) main_v12 main_v15 main_c_5
-- ==== Kernel.lean ====
abbrev S4x2048x2048 : Shape := ⟨3, ![4, 2048, 2048]⟩
abbrev S2048x2048 : Shape := ⟨2, ![2048, 2048]⟩
abbrev S_ : Shape := ⟨0, ![]⟩
abbrev S2048 : Shape := ⟨1, ![2048]⟩
abbrev S8192x2048 : Shape := ⟨2, ![8192, 2048]⟩
abbrev S1x1 : Shape := ⟨2, ![1, 1]⟩
abbrev S1x2048 : Shape := ⟨2, ![1, 2048]⟩
abbrev S256x2048 : Shape := ⟨2, ![256, 2048]⟩

abbrev nBuf : Space → Nat
  | .hbm => 12
  | .vmem => 7
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S_, .f32⟩
  | .hbm, ⟨3, _⟩ => ⟨S2048, .f32⟩
  | .hbm, ⟨4, _⟩ => ⟨S8192x2048, .f32⟩
  | .hbm, ⟨5, _⟩ => ⟨S_, .f32⟩
  | .hbm, ⟨6, _⟩ => ⟨S_, .f32⟩
  | .hbm, ⟨7, _⟩ => ⟨S1x1, .f32⟩
  | .hbm, ⟨8, _⟩ => ⟨S1x2048, .f32⟩
  | .hbm, ⟨9, _⟩ => ⟨S2048x2048, .bf16⟩
  | .hbm, ⟨10, _⟩ => ⟨S8192x2048, .f32⟩
  | .hbm, ⟨11, _⟩ => ⟨S4x2048x2048, .f32⟩
  | .local _ .vmem, ⟨0, _⟩ => ⟨S256x2048, .f32⟩
  | .local _ .vmem, ⟨1, _⟩ => ⟨S256x2048, .f32⟩
  | .local _ .vmem, ⟨2, _⟩ => ⟨S2048x2048, .bf16⟩
  | .local _ .vmem, ⟨3, _⟩ => ⟨S1x2048, .f32⟩
  | .local _ .vmem, ⟨4, _⟩ => ⟨S1x1, .f32⟩
  | .local _ .vmem, ⟨5, _⟩ => ⟨S256x2048, .f32⟩
  | .local _ .vmem, ⟨6, _⟩ => ⟨S256x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4x2048x2048_S8192x2048 : S4x2048x2048.ShapeCasts S8192x2048
  shapeCasts_S_S1x1 : S_.ShapeCasts S1x1
  shapeCasts_S2048_S1x2048 : S2048.ShapeCasts S1x2048
  bitsLt_bf16_f32 : FTy.bits .bf16 < FTy.bits .f32
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  shapeCasts_S8192x2048_S4x2048x2048 : S8192x2048.ShapeCasts S4x2048x2048
  dot_S256x2048_S2048x2048_S256x2048_1_0_0_1_n_n_wf : DotDims.WF S256x2048 S2048x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S8192x2048.size a
  hwx0_0 : ∀ i : grid0.Coords, EltTy.bits .f32 = 32 ∨ (Rect.block (s := S8192x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S8192x2048.size a
  hwx0_4 : ∀ i : grid0.Coords, EltTy.bits .f32 = 32 ∨ (Rect.block (s := S8192x2048) S256x2048.size (cc0_transform_4 i) (hinb0_4 i)).WholeWords (EltTy.packing .f32)

variable [Facts₀]

def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x2048 : Shape := ⟨3, ![4, 2048, 2048]⟩
abbrev S2048x2048 : Shape := ⟨2, ![2048, 2048]⟩
abbrev S_ : Shape := ⟨0, ![]⟩
abbrev S2048 : Shape := ⟨1, ![2048]⟩
abbrev S8192x2048 : Shape := ⟨2, ![8192, 2048]⟩
abbrev S1x2048 : Shape := ⟨2, ![1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S_, .f32⟩
  | .hbm, ⟨3, _⟩ => ⟨S2048, .f32⟩
  | .hbm, ⟨4, _⟩ => ⟨S8192x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_cst_1 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]

class Facts₀ : Prop where
  shapeCasts_S4x2048x2048_S8192x2048 : S4x2048x2048.ShapeCasts S8192x2048
  shapeCasts_S_S_ : S_.ShapeCasts S_
  bcast_S_S8192x2048 : S_.BroadcastsInDim S8192x2048 (![] : Fin 0 → Fin S8192x2048.rank)
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  shapeCasts_S8192x2048_S4x2048x2048 : S8192x2048.ShapeCasts S4x2048x2048
  dot_S8192x2048_S2048x2048_S8192x2048_1_0_0_1_n_n_wf : DotDims.WF S8192x2048 S2048x2048 S8192x2048 [1] [0] [0] [1] [] []

variable [Facts₀]

def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf

class Facts : Prop extends Facts₀ where

variable [Facts]
-- ==== Proof.Spec.lean ====
/-
  The quantised linear layer as one function of its arguments, over the extended reals.

  The input is a matrix X of 8192 rows (the leading two axes of the activations, flattened) and 2048 columns, the
  weight W is 2048 × 2048, the scale s is a scalar and the bias b has 2048 entries. Every entry of X is divided by
  the scale (itself kept no smaller than a fixed positive floor), rounded to the nearest integer with ties to even,
  and clamped to [-127, 127]; the quantised matrix is multiplied by W and the bias is added to every row:

      out[r, c] = Σₖ quant(X[r, k]) · W[k, c] + b[c].

  Both programs compute exactly this; they differ only in how the rows are split into blocks and in the order the
  sum is taken, neither of which the function above depends on.
-/
import Idealize.ShloMosaic.PureOps.Ideal
import Idealize.ShloMosaic.Lib.ValueIdx

noncomputable section

namespace Cert.QuantLinear

open Idealize.ShloMosaic Idealize.ShloMosaic.ValueIdx

/-- The scale the quantiser divides by: the given one, but no smaller than the floor (the binary value nearest 1e-8). -/
def scaleOf (s : EReal) : EReal := max s (Ideal.ofBits .f32 0x322BCC77#32)

/-- One entry quantised at scale `sc`: the quotient rounded to the nearest integer, ties to even, then clamped
    below by -127 and above by 127. -/
def quant (sc v : EReal) : EReal :=
  min (Ideal.ofBits .f32 0x42FE0000#32)
    (max (Ideal.ofBits .f32 0xC2FE0000#32) (Ideal.liftRound Ideal.roundHalfEven (Ideal.div v sc)))

/-- Entry (r, c) of the layer's result on the flattened input: `Σₖ quant(X[r, k]) · W[k, c] + b[c]`. -/
def out2 (X : (⟨2, ![8192, 2048]⟩ : Shape).Idx → EReal) (W : (⟨2, ![2048, 2048]⟩ : Shape).Idx → EReal)
    (s : (⟨0, ![]⟩ : Shape).Idx → EReal) (b : (⟨1, ![2048]⟩ : Shape).Idx → EReal) :
    (⟨2, ![8192, 2048]⟩ : Shape).Idx → EReal :=
  fun i => (∑ k : Fin 2048, quant (scaleOf (s ix0)) (X (ix2 (i 0) k)) * W (ix2 k (i 1))) + b (ix1 (i 1))

end Cert.QuantLinear

end
-- ==== Proof.RefValue.lean ====
/-
  The reference's value. Its stages, read one entry at a time, are the layer's function `out2` of the flattened
  activations: the scale is floored and broadcast, every entry is divided by it, rounded to even and clamped, the
  product with the weight is the sum over the shared axis, and the bias — first laid out as one row, then repeated
  down the rows — is added.
-/
import proofs.«111718_j46505905881434_1_alg».proof.Proof.Gen.ReferenceIdeal.Read
import proofs.«111718_j46505905881434_1_alg».proof.Proof.Spec

noncomputable section

namespace Cert.ReferenceIdeal.RefValue

open Cert.ReferenceIdeal Cert.ReferenceIdeal.Read Cert.QuantLinear
open Idealize.ShloMosaic Idealize.ShloMosaic.ValueIdx

/-- The left operand of the product at output entry `i` and summation index `k` is read at (row of `i`, `k`). -/
theorem lidx_eq (i : S8192x2048.Idx) (k : Fin 2048) : lidx_main_v7 i k = ix2 (i 0) k :=
  funext fun a => Fin.ext (by match a with | ⟨0, _⟩ => rfl | ⟨1, _⟩ => rfl)

/-- The right operand is read at (`k`, column of `i`). -/
theorem ridx_eq (i : S8192x2048.Idx) (k : Fin 2048) : ridx_main_v7 i k = ix2 k (i 1) :=
  funext fun a => Fin.ext (by match a with | ⟨0, _⟩ => rfl | ⟨1, _⟩ => rfl)

/-- The bias, laid out as a row and repeated down the rows, is read at the column of `i`. -/
theorem bidx_eq (i : S8192x2048.Idx) : idx_main_v8 (idx_main_v9 i) = ix1 (i 1) :=
  funext fun a => Fin.ext (by match a with | ⟨0, _⟩ => rfl)

/-- The floored scale: a reshape of a scalar to a scalar changes nothing. -/
theorem scale_eq (x2 : FVec Ideal S_ .f32) (j : S_.Idx) :
    val_main_v2 (F := Ideal) x2 j = scaleOf (x2 ix0) := by
  rw [val_main_v2_apply, val_main_cst_apply]
  unfold val_main_v1
  rw [shapeCast_self, eq_ix0 j]
  rfl

/-- One quantised entry of the reference: the clamp of the rounded quotient. -/
theorem quant_eq (x0 : FVec Ideal S4x2048x2048 .f32) (x2 : FVec Ideal S_ .f32) (j : S8192x2048.Idx) :
    val_main_v6 (F := Ideal) x0 x2 j = quant (scaleOf (x2 ix0)) (val_main_v0 (F := Ideal) x0 j) := by
  rw [val_main_v6_apply, val_main_call1_v4_apply, val_main_call1_v3_apply, val_main_cst_1_apply,
    val_main_call1_v2_apply, val_main_call1_v1_apply, val_main_call1_v0_apply, val_main_cst_0_apply,
    val_main_v5_apply, val_main_v4_apply, val_main_v3_apply, scale_eq]
  rfl

/-- The reference's result before its final reshape is the layer's function of the flattened activations. -/
theorem result_eq (x0 : FVec Ideal S4x2048x2048 .f32) (x1 : FVec Ideal S2048x2048 .f32) (x2 : FVec Ideal S_ .f32)
    (x3 : FVec Ideal S2048 .f32) :
    val_main_v10 (F := Ideal) x0 x1 x2 x3 = out2 (val_main_v0 (F := Ideal) x0) x1 x2 x3 := by
  funext i
  rw [val_main_v10_apply, val_main_v7_apply, val_main_v9_apply, val_main_v8_apply, bidx_eq]
  unfold out2
  refine congrArg (· + x3 (ix1 (i 1))) (Finset.sum_congr rfl fun k _ => ?_)
  rw [quant_eq, lidx_eq, ridx_eq]
  rfl

end Cert.ReferenceIdeal.RefValue

end
-- ==== Proof.LibMatmulAt.lean ====
/-
  A matrix product into a zero accumulator, read at one entry over the extended reals.

  For dimension numbers that contract the left operand's second axis with the right operand's first, with no batch
  axis — so that the left operand is read at (row, k) and the right at (k, column) — the entry (p, q) of the product
  of an [A × K] and a [K × B] matrix is `∑ₖ l[p, k] · r[k, q]`. The four facts about where the dimension numbers
  read their operands are hypotheses, so that the lemma serves any printed record of this kind.
-/
import Idealize.ShloMosaic.PureOps.Ideal.Laws
import Idealize.ShloMosaic.Lib.ValueIdx

noncomputable section

namespace Idealize.ShloMosaic.MatmulAt

open Idealize.ShloMosaic Idealize.ShloMosaic.ValueIdx

/-- Entry (p, q) of `l · r` accumulated into zero is the sum over the contracted axis of `l[p, k] · r[k, q]`, for
    dimension numbers `D` whose one contracted axis has extent `K` (`hr`, `hs`) and which read the left operand at
    (row, k) (`hl0`, `hl1`) and the right at (k, column) (`hr0`, `hr1`). -/
theorem matmul_zero_at {A K B : Nat} {φ₁ φ₂ : FTy}
    (D : DotDims (⟨2, ![A, K]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision) (l : FVec Ideal (⟨2, ![A, K]⟩ : Shape) φ₁) (r : FVec Ideal (⟨2, ![K, B]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulAt

end
-- ==== Proof.KernelPayload.lean ====
/-
  The value the kernel body stores, read at one entry. On a block of 256 rows the body divides every entry by the
  scale it is handed, rounds to even, clamps to [-127, 127], multiplies by the whole weight matrix into a zero
  accumulator and adds the bias row to every row; so entry (p, q) of what it stores is

      Σₖ quant(x[p, k]) · w[k, q] + bias[0, q].

  The narrowing of the quantised block and of the weight to a shorter float format changes no value over the
  extended reals.
-/
import proofs.«111718_j46505905881434_1_alg».proof.Proof.Gen.KernelIdeal.Skeleton
import proofs.«111718_j46505905881434_1_alg».proof.Proof.Spec
import proofs.«111718_j46505905881434_1_alg».proof.Proof.LibMatmulAt
import Idealize.ShloMosaic.Lib.Pipeline.Value
import Idealize.ShloMosaic.Lib.ValueLayout

noncomputable section

namespace Cert.KernelIdeal.Payload

open Cert.KernelIdeal Cert.KernelIdeal.Gen Cert.QuantLinear
open Idealize.ShloMosaic Idealize.ShloMosaic.ValueIdx

/-! ## Where the product reads its operands -/

theorem lhs_0 (i : S256x2048.Idx) (q : dot_S256x2048_S2048x2048_S256x2048_1_0_0_1_n_n.contr.Idx) :
    (dot_S256x2048_S2048x2048_S256x2048_1_0_0_1_n_n.lhsIdx i q 0).val = (i 0).val := by
  unfold DotDims.lhsIdx
  rw [dif_neg (show ¬(0 : Fin S256x2048.rank) ∈ dot_S256x2048_S2048x2048_S256x2048_1_0_0_1_n_n.lhsBatch by decide), dif_pos (show (0 : Fin S256x2048.rank) ∈ dot_S256x2048_S2048x2048_S256x2048_1_0_0_1_n_n.lhsNonContracting by decide)]
  rfl
theorem lhs_1 (i : S256x2048.Idx) (q : dot_S256x2048_S2048x2048_S256x2048_1_0_0_1_n_n.contr.Idx) :
    (dot_S256x2048_S2048x2048_S256x2048_1_0_0_1_n_n.lhsIdx i q 1).val = (q ⟨0, by decide⟩).val :=
  dot_S256x2048_S2048x2048_S256x2048_1_0_0_1_n_n.lhsIdx_val_of_single rfl i q
theorem rhs_0 (i : S256x2048.Idx) (q : dot_S256x2048_S2048x2048_S256x2048_1_0_0_1_n_n.contr.Idx) :
    (dot_S256x2048_S2048x2048_S256x2048_1_0_0_1_n_n.rhsIdx i q 0).val = (q ⟨0, by decide⟩).val :=
  dot_S256x2048_S2048x2048_S256x2048_1_0_0_1_n_n.rhsIdx_val_of_single rfl i q
theorem rhs_1 (i : S256x2048.Idx) (q : dot_S256x2048_S2048x2048_S256x2048_1_0_0_1_n_n.contr.Idx) :
    (dot_S256x2048_S2048x2048_S256x2048_1_0_0_1_n_n.rhsIdx i q 1).val = (i 1).val := by
  unfold DotDims.rhsIdx
  rw [dif_neg (show ¬(1 : Fin S2048x2048.rank) ∈ dot_S256x2048_S2048x2048_S256x2048_1_0_0_1_n_n.rhsBatch by decide), dif_pos (show (1 : Fin S2048x2048.rank) ∈ dot_S256x2048_S2048x2048_S256x2048_1_0_0_1_n_n.rhsNonContracting by decide)]
  rfl

/-! ## The stored value at an entry -/

/-- The scalar the body divides by is the one entry of the 1 × 1 block it loads. -/
theorem scale_at (v0 : Vec Ideal S1x1 .f32) : extractAt ![0, 0] v0 inpos_S1x1_p0_0 = v0 (ix2 (0 : Fin 1) (0 : Fin 1)) :=
  congrArg v0 (funext fun a => Fin.ext (by match a with | ⟨0, _⟩ => rfl | ⟨1, _⟩ => rfl))

/-- Entry (p, q) of the stored block: the quantised row `p` of the input block against column `q` of the weight,
    plus the bias at `q`. -/
theorem pay_at (v0 : Vec Ideal S1x1 .f32) (v2 : Vec Ideal S256x2048 .f32) (v12 : Vec Ideal S2048x2048 .bf16)
    (v15 : Vec Ideal S1x2048 .f32) (p : Fin 256) (q : Fin 2048) :
    k0_pay1 (F := Ideal) v0 v2 v12 v15 (ix2 p q)
      = (∑ k : Fin 2048, quant (v0 (ix2 (0 : Fin 1) (0 : Fin 1))) (v2 (ix2 p k)) * v12 (ix2 k q)) + v15 (ix2 (0 : Fin 1) q) := by
  unfold k0_pay1
  rw [addf_apply, broadcastTo_1b_ab_apply, shapeCast_self, shapeCast_self, shapeCast_self, scale_at]
  refine congrArg (· + v15 (ix2 (0 : Fin 1) q)) ?_
  refine (MatmulAt.matmul_zero_at (φ₁ := .bf16) (φ₂ := .bf16) dot_S256x2048_S2048x2048_S256x2048_1_0_0_1_n_n rfl rfl lhs_0 lhs_1 rhs_0 rhs_1 none _ _ p q).trans ?_
  rfl

end Cert.KernelIdeal.Payload

end
-- ==== Proof.KernelValue.lean ====
/-
  The kernel's value. The grid has 32 points; point `t` is handed rows [256·t, 256·t + 256) of the flattened
  activations together with the whole weight, the whole bias row and the floored scale, and writes back the same rows
  of the result. What it writes is those rows of the layer's function `out2`; the 32 blocks tile the result, so after
  the run the result array is `out2` of the arguments, and the program's last line reshapes it to three axes.
-/
import proofs.«111718_j46505905881434_1_alg».proof.Proof.Gen.KernelIdeal.Frame
import proofs.«111718_j46505905881434_1_alg».proof.Proof.KernelPayload
import Idealize.ShloMosaic.Lib.Pipeline.Value
import Idealize.ShloMosaic.Lib.ValueLayout
import Idealize.ShloMosaic.Lib.StableHlo.Run

set_option maxRecDepth 16384

noncomputable section

namespace Cert.KernelIdeal.KValue

open Cert.KernelIdeal Cert.KernelIdeal.Gen Cert.QuantLinear
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-! ## The arrays the region finds -/

/-- The activations as the region finds them, flattened to 8192 rows. -/
abbrev xarr (c : Dev nD) : Vec Ideal S8192x2048 .f32 := V m c main_v0
/-- The weight as the region finds it. -/
abbrev warr (c : Dev nD) : Vec Ideal S2048x2048 .bf16 := V m c main_v4
/-- The bias as the region finds it, one row. -/
abbrev barr (c : Dev nD) : Vec Ideal S1x2048 .f32 := V m c main_v3
/-- The scale as the region finds it, one entry. -/
abbrev sarr (c : Dev nD) : Vec Ideal S1x1 .f32 := V m c main_v2

/-- The flattened activations are the argument reshaped. -/
theorem xarr_eq (c : Dev nD) :
    xarr m c = shapeCast S8192x2048 (m ((c : Thread nD τ).loc main_arg0)) shapeCasts_S4x2048x2048_S8192x2048 := by
  show StableHlo.after hostOps0 (fun b => m (c, b)) (Proc.devRef .tc main_v0) = _
  after_results
  rfl

/-- The weight the region finds is the argument, entry by entry (the change of float format keeps every value). -/
theorem warr_eq (c : Dev nD) : warr m c = m ((c : Thread nD τ).loc main_arg1) := by
  show StableHlo.after hostOps0 (fun b => m (c, b)) (Proc.devRef .tc main_v4) = _
  after_results
  rfl

/-- The bias row is the argument with a unit axis in front. -/
theorem barr_eq (c : Dev nD) :
    barr m c = shapeCast S1x2048 (m ((c : Thread nD τ).loc main_arg3)) shapeCasts_S2048_S1x2048 := by
  show StableHlo.after hostOps0 (fun b => m (c, b)) (Proc.devRef .tc main_v3) = _
  after_results
  rfl

/-- The scale entry is the larger of the argument and the floor. -/
theorem sarr_eq (c : Dev nD) :
    sarr m c = shapeCast S1x1 (maximumf (m ((c : Thread nD τ).loc main_arg2)) (constant (F := Ideal) S_ .f32 0x322BCC77#32)) shapeCasts_S_S1x1 := by
  show StableHlo.after hostOps0 (fun b => m (c, b)) (Proc.devRef .tc main_v2) = _
  after_results
  rfl

/-! ## The layer's function of the arrays the region finds -/

/-- What the result array ends holding: the layer's function `out2` of the flattened activations, the weight, the
    scale and the bias. -/
abbrev G (c : Dev nD) : Vec Ideal S8192x2048 .f32 :=
  out2 (xarr m c) (m ((c : Thread nD τ).loc main_arg1)) (m ((c : Thread nD τ).loc main_arg2)) (m ((c : Thread nD τ).loc main_arg3))

/-! ## The index maps, decided over the 32 points -/

theorem hz : (![0, 0] : Fin 2 → Nat) = fun _ => 0 := funext fun a => by fin_cases a <;> rfl

/-- The input block of rows moves with the output block; the weight, the bias row and the scale stay at their one
    block; the output's row-block index runs over 0 … 31 and its column-block index is 0. -/
theorem idx_facts : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 ∧ win0_4.index t (0 : Fin 2) ≤ 31 :=
  (by decide +kernel : ∀ t : Fin grid0.N, _)

/-- Every row block of the result is some point's. -/
theorem idx_onto : ∀ q0 : Fin 32, ∃ t : Fin cfg0.N, win0_4.index t = ![q0.val, 0] :=
  (by decide +kernel : ∀ q0 : Fin 32, ∃ t : Fin grid0.N, win0_4.index t = ![q0.val, 0])

/-! ## The blocks a point is handed -/

abbrev xblk (c : Dev nD) (t : Fin cfg0.N) : Vec Ideal S256x2048 .f32 := iblk m c 0 t
abbrev wblk (c : Dev nD) (t : Fin cfg0.N) : Vec Ideal S2048x2048 .bf16 := iblk m c 1 t
abbrev bblk (c : Dev nD) (t : Fin cfg0.N) : Vec Ideal S1x2048 .f32 := iblk m c 2 t
abbrev sblk (c : Dev nD) (t : Fin cfg0.N) : Vec Ideal S1x1 .f32 := iblk m c 3 t

/-- Row `p` of point `t`'s block of activations is row `r = 256·(block index) + p` of the flattened activations. -/
theorem xblk_at (c : Dev nD) (t : Fin cfg0.N) (p : Fin 256) (k : Fin 2048) (r : Fin 8192)
    (hr : r.val = win0_4.index t (0 : Fin 2) * 256 + p.val) :
    xblk m c t (ix2 p k) = xarr m c (ix2 r k) := by
  obtain ⟨e0, e1, -⟩ := idx_facts t
  show xarr m c (((cfg0.win 0).blk t).view.emb (ix2 p k)) = _
  refine congrArg (xarr m c) (funext fun a => Fin.ext ?_)
  match a with
  | ⟨0, _⟩ => show win0_0.index t (0 : Fin 2) * 256 + 1 * p.val = r.val; omega
  | ⟨1, _⟩ => show win0_0.index t (1 : Fin 2) * 2048 + 1 * k.val = k.val; omega

/-- Every point is handed the whole weight. -/
theorem wblk_at (c : Dev nD) (t : Fin cfg0.N) (k q : Fin 2048) :
    wblk m c t (ix2 k q) = m ((c : Thread nD τ).loc main_arg1) (ix2 k q) := by
  obtain ⟨-, -, e2, e3, -⟩ := idx_facts t
  refine Eq.trans ?_ (congrFun (warr_eq m c) (ix2 k q))
  show warr m c (((cfg0.win 1).blk t).view.emb (ix2 k q)) = _
  refine congrArg (warr m c) (funext fun a => Fin.ext ?_)
  match a with
  | ⟨0, _⟩ => show win0_1.index t (0 : Fin 2) * 2048 + 1 * k.val = k.val; omega
  | ⟨1, _⟩ => show win0_1.index t (1 : Fin 2) * 2048 + 1 * q.val = q.val; omega

/-- Every point is handed the whole bias row. -/
theorem bblk_at (c : Dev nD) (t : Fin cfg0.N) (q : Fin 2048) :
    bblk m c t (ix2 (0 : Fin 1) q) = m ((c : Thread nD τ).loc main_arg3) (ix1 q) := by
  obtain ⟨-, -, -, -, e4, e5, -⟩ := idx_facts t
  have h : bblk m c t (ix2 (0 : Fin 1) q) = barr m c (ix2 (0 : Fin 1) q) := by
    show barr m c (((cfg0.win 2).blk t).view.emb (ix2 (0 : Fin 1) q)) = _
    refine congrArg (barr m c) (funext fun a => Fin.ext ?_)
    match a with
    | ⟨0, _⟩ => show win0_2.index t (0 : Fin 2) * 1 + 1 * 0 = 0; omega
    | ⟨1, _⟩ => show win0_2.index t (1 : Fin 2) * 2048 + 1 * q.val = q.val; omega
  rw [h, barr_eq]
  exact shapeCast_a_1a_apply _ _ (0 : Fin 1) q

/-- A scalar reshaped to a 1 × 1 array holds the scalar at its one entry. -/
theorem scalar_read (x : FVec Ideal S_ .f32) (j : S1x1.Idx) : shapeCast S1x1 x shapeCasts_S_S1x1 j = x ix0 := by
  unfold shapeCast
  exact congrArg x (eq_ix0 _)

/-- Every point is handed the floored scale. -/
theorem sblk_at (c : Dev nD) (t : Fin cfg0.N) (j : S1x1.Idx) :
    sblk m c t j = scaleOf (m ((c : Thread nD τ).loc main_arg2) ix0) := by
  show sarr m c (((cfg0.win 3).blk t).view.emb j) = _
  rw [sarr_eq, scalar_read]
  rfl

/-! ## What a point writes back -/

/-- Point `t` writes back its rows of `G`. -/
theorem flushed_eq (c : Dev nD) (t : Fin cfg0.N) :
    (dats m 0 c).flushed 4 t = ((cfg0.win 4).blk t).view.read (Elt Ideal) (G m c) := by
  show (cfg0.win 4).cut (grid0.coords t) ((dats m 0 c).after 4 t) = _
  rw [after0_4]
  unfold out0_4
  rw [View.canon_unit_zero hz]
  simp only [View.ld_unit_zero (S := S1x1) hz, View.ld_unit_zero (S := S256x2048) hz,
    View.ld_unit_zero (S := S2048x2048) hz, View.ld_unit_zero (S := S1x2048) hz]
  obtain ⟨-, -, -, -, -, -, -, -, e8, e9⟩ := idx_facts t
  funext j
  obtain ⟨p, q, rfl⟩ : ∃ (p : Fin 256) (q : Fin 2048), j = ix2 p q := ⟨j 0, j 1, eq_ix2 j⟩
  refine (Payload.pay_at (sblk m c t) (xblk m c t) (wblk m c t) (bblk m c t) p q).trans ?_
  have hr : (((cfg0.win 4).blk t).view.emb (ix2 p q) (0 : Fin 2)).val = win0_4.index t (0 : Fin 2) * 256 + p.val := by
    show win0_4.index t (0 : Fin 2) * 256 + 1 * p.val = _; omega
  have hc : ((cfg0.win 4).blk t).view.emb (ix2 p q) (1 : Fin 2) = q := Fin.ext (by
    show win0_4.index t (1 : Fin 2) * 2048 + 1 * q.val = q.val; omega)
  show _ = (∑ k : Fin 2048, quant (scaleOf (m ((c : Thread nD τ).loc main_arg2) ix0))
      (xarr m c (ix2 (((cfg0.win 4).blk t).view.emb (ix2 p q) (0 : Fin 2)) k))
        * m ((c : Thread nD τ).loc main_arg1) (ix2 k (((cfg0.win 4).blk t).view.emb (ix2 p q) (1 : Fin 2))))
      + m ((c : Thread nD τ).loc main_arg3) (ix1 (((cfg0.win 4).blk t).view.emb (ix2 p q) (1 : Fin 2)))
  rw [hc, sblk_at, bblk_at]
  refine congrArg (· + m ((c : Thread nD τ).loc main_arg3) (ix1 q)) (Finset.sum_congr rfl fun k _ => ?_)
  rw [xblk_at m c t p k _ hr, wblk_at]

/-! ## The blocks tile the result -/

/-- An entry of the result is in point `t`'s block iff each coordinate is in the block's range on its axis. -/
theorem mem_blk (t : Fin cfg0.N) (i : S8192x2048.Idx) :
    i ∈ ((cfg0.win 4).blk t).view.set ↔ ∀ a : Fin 2, win0_4.index t a * S256x2048.size a ≤ (i a).val ∧ (i a).val < win0_4.index t a * S256x2048.size a + S256x2048.size a := by
  show i ∈ ((View.whole main_v5).slice (win0_4.rect t)).set ↔ _
  rw [View.set_slice_whole, Rect.mem_set_unit]
  exact Iff.rfl

/-- Row `r` of the result is written by the point whose block index is `r / 256`. -/
theorem cover (i : S8192x2048.Idx) :
    ∃ t : Fin cfg0.N, (cfg0.win 4).flush t = true ∧ i ∈ ((cfg0.win 4).blk t).view.set := by
  have hi0 : (i 0).val < 8192 := (i 0).isLt
  have hi1 : (i 1).val < 2048 := (i 1).isLt
  obtain ⟨t, ht⟩ := idx_onto ⟨(i 0).val / 256, by omega⟩
  have q0 : win0_4.index t (0 : Fin 2) = (i 0).val / 256 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 2048 ≤ (i 1).val ∧ (i 1).val < win0_4.index t (1 : Fin 2) * 2048 + 2048; omega

/-- The result array after the region is `G`. -/
theorem final (c : Dev nD) : (dats m 0 c).arrAt 4 cfg0.N = G m c :=
  (dats m 0 c).arrAt_eq_of_cover 4 (G m c) (fun t _ => flushed_eq m c t) cover

/-! ## The run -/

/-- `G` in terms of the argument itself: the activations the region finds are the argument flattened. -/
theorem G_eq (c : Dev nD) :
    G m c = out2 (shapeCast S8192x2048 (m ((c : Thread nD τ).loc main_arg0)) shapeCasts_S4x2048x2048_S8192x2048)
      (m ((c : Thread nD τ).loc main_arg1)) (m ((c : Thread nD τ).loc main_arg2)) (m ((c : Thread nD τ).loc main_arg3)) := by
  show out2 (xarr m c) _ _ _ = _
  rw [xarr_eq]

/-- The program's last line reshapes the result array to three axes. -/
theorem tail_eq (c : Dev nD) :
    Pipeline.afterTail₀ cfgs (dats m) 0 (V0 m) [hostOps1] c main_v6
      = shapeCast S4x2048x2048 (G m c) shapeCasts_S8192x2048_S4x2048x2048 := by
  unfold Pipeline.afterTail₀
  show StableHlo.after hostOps1 _ (Proc.devRef .tc main_v6) = _
  after_results
  exact congrArg (fun y => shapeCast S4x2048x2048 y shapeCasts_S8192x2048_S4x2048x2048)
    ((Pipeline.withArrays_arr spec0 launch0.win.arr_inj c _ _ 4).trans (final m c))

/-- Every weakly fair execution of the program terminates with the result at the layer's function of the arguments,
    reshaped to three axes, and the arguments unchanged. -/
theorem run : θ_run defs (onTc (τ := τ) (main (F := Ideal))) ⟨m, fun _ => 0, ρ⟩ fun r => ∀ c : Dev nD,
      r.2.mem ((c.tc : Thread nD τ).loc main_v6)
        = shapeCast S4x2048x2048 (out2 (shapeCast S8192x2048 (m ((c.tc : Thread nD τ).loc main_arg0)) shapeCasts_S4x2048x2048_S8192x2048)
            (m ((c.tc : Thread nD τ).loc main_arg1)) (m ((c.tc : Thread nD τ).loc main_arg2)) (m ((c.tc : Thread nD τ).loc main_arg3)))
            shapeCasts_S8192x2048_S4x2048x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
      ⟨(((h c).2 main_v6 (Pipeline.mem_restRefs_of main_v6 (by decide) (by decide))).trans (tail_eq m c)).trans
          (congrArg (fun y => shapeCast S4x2048x2048 y shapeCasts_S8192x2048_S4x2048x2048) (G_eq m c)),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c),
        ((h c).2 main_arg3 (Pipeline.mem_restRefs_of main_arg3 (by decide) (by decide))).trans (W_main_arg3 m (dats m) c)⟩)
    (run_main m ρ)

end Cert.KernelIdeal.KValue

end
-- ==== Proof.lean ====
/-
  The kernel and the reference are one function of their arguments over the extended reals.

  Both flatten the activations to a matrix X of 8192 rows, floor the scale, and compute

      out[r, c] = Σₖ quant(X[r, k]) · W[k, c] + b[c],      quant(v) = clamp(round-to-even(v / scale), -127, 127),

  then give the result back its three axes. The kernel does it 256 rows at a time, multiplying each quantised block
  by the whole weight into a zero accumulator (Proof/KernelPayload.lean, Proof/KernelValue.lean: what a block holds,
  that the 32 blocks tile the result, and the final reshape); the reference does it in one product
  (Proof/RefValue.lean). The change of float format the kernel applies to the quantised block and to the weight
  keeps every value, rounding and division are the same functions on both sides, and the sum does not depend on how
  the rows are grouped, so no fact about the inputs is used. Nothing of the kernel was rewritten when it was
  idealised, so that part of the claim is empty.
-/
import proofs.«111718_j46505905881434_1_alg».proof.Defs
import proofs.«111718_j46505905881434_1_alg».proof.Proof.Gen.Kernel
import proofs.«111718_j46505905881434_1_alg».proof.Proof.Gen.Kernel.Skeleton
import proofs.«111718_j46505905881434_1_alg».proof.Proof.Gen.Kernel.Launch
import proofs.«111718_j46505905881434_1_alg».proof.Proof.Gen.Kernel.Points
import proofs.«111718_j46505905881434_1_alg».proof.Proof.Gen.Kernel.Frame
import proofs.«111718_j46505905881434_1_alg».proof.Proof.Gen.KernelIdeal
import proofs.«111718_j46505905881434_1_alg».proof.Proof.Gen.KernelIdeal.Skeleton
import proofs.«111718_j46505905881434_1_alg».proof.Proof.Gen.KernelIdeal.Launch
import proofs.«111718_j46505905881434_1_alg».proof.Proof.Gen.KernelIdeal.Points
import proofs.«111718_j46505905881434_1_alg».proof.Proof.Gen.KernelIdeal.Frame
import proofs.«111718_j46505905881434_1_alg».proof.Proof.Gen.ReferenceIdeal
import proofs.«111718_j46505905881434_1_alg».proof.Proof.Gen.ReferenceIdeal.Run
import proofs.«111718_j46505905881434_1_alg».proof.Proof.Gen.ReferenceIdeal.Read
import proofs.«111718_j46505905881434_1_alg».proof.Proof.Gen.Pre_finite_inputs
import proofs.«111718_j46505905881434_1_alg».proof.Proof.Spec
import proofs.«111718_j46505905881434_1_alg».proof.Proof.RefValue
import proofs.«111718_j46505905881434_1_alg».proof.Proof.KernelValue
import Idealize.ShloMosaic.Adequacy
import Idealize.ShloMosaic.Init

noncomputable section

namespace Cert.Proof

open Idealize.ShloMosaic Idealize.ShloMosaic.TcCoe Idealize.SL.Sem Cert.QuantLinear

theorem frame_k : Cert.frame_Kernel := fun m ρ _ => Cert.Kernel.Gen.frame m ρ

theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From arguments that agree, the kernel ends at the layer's function of them reshaped to three axes, and so does
    the reference: its result before the last reshape is the same function of the flattened activations. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, (hagree c).1, (hagree c).2.1, (hagree c).2.2.1, (hagree c).2.2.2]
  unfold Cert.ReferenceIdeal.Read.val_main_v11
  rw [Cert.ReferenceIdeal.RefValue.result_eq]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
